-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x128 : Shape := ⟨3, ![4, 2048, 128]⟩
abbrev S_ : Shape := ⟨0, ![]⟩

class Facts : Prop where
  bcast_S_S4x2048x128 : S_.BroadcastsInDim S4x2048x128 (![] : Fin 0 → Fin S4x2048x128.rank)
  reducesTo_S4x2048x128_S_d0_1_2 : S4x2048x128.ReducesTo [0, 1, 2] S_
  h_S_ : 0 < S_.numel

variable [Facts]

def fn {F : FTy → Type} [FloatOps F] (main_arg0 : FVec F S4x2048x128 .f32) : IVec S_ 1 :=
  let main_v0 : FVec F S4x2048x128 .f32 := Host.absf main_arg0
  let main_cst : FVec F S_ .f32 := constant S_ .f32 0x7F800000#32
  let main_v1 : FVec F S4x2048x128 .f32 := broadcastInDim S4x2048x128 ![] bcast_S_S4x2048x128 main_cst
  let main_v2 : IVec S4x2048x128 1 := cmpf .olt main_v0 main_v1
  let main_c : IVec S_ 1 := constantI S_ 1 1#1
  let main_v3 : IVec S_ 1 := (fun x v => Host.reduce IntOp.andi x v reducesTo_S4x2048x128_S_d0_1_2 h_S_) main_v2 main_c
  main_v3
-- ==== Kernel.lean ====
abbrev S4x2048x128 : Shape := ⟨3, ![4, 2048, 128]⟩
abbrev S4x2048x2048 : Shape := ⟨3, ![4, 2048, 2048]⟩
abbrev S1x512x128 : Shape := ⟨3, ![1, 512, 128]⟩
abbrev S1x512x512 : Shape := ⟨3, ![1, 512, 512]⟩
abbrev S512x128 : Shape := ⟨2, ![512, 128]⟩
abbrev S512 : Shape := ⟨1, ![512]⟩
abbrev S512x1 : Shape := ⟨2, ![512, 1]⟩
abbrev S128x512 : Shape := ⟨2, ![128, 512]⟩
abbrev S512x512 : Shape := ⟨2, ![512, 512]⟩
abbrev S1x512 : Shape := ⟨2, ![1, 512]⟩

abbrev nBuf : Space → Nat
  | .hbm => 2
  | .vmem => 6
  | .smem => 0
  | _ => 0

abbrev bufTy : (tb : Table) → Fin (tcTables nBuf tb) → BufTy
  | .hbm, ⟨0, _⟩ => ⟨S4x2048x128, .f32⟩
  | .hbm, ⟨1, _⟩ => ⟨S4x2048x2048, .f32⟩
  | .local _ .vmem, ⟨0, _⟩ => ⟨S1x512x128, .f32⟩
  | .local _ .vmem, ⟨1, _⟩ => ⟨S1x512x128, .f32⟩
  | .local _ .vmem, ⟨2, _⟩ => ⟨S1x512x128, .f32⟩
  | .local _ .vmem, ⟨3, _⟩ => ⟨S1x512x128, .f32⟩
  | .local _ .vmem, ⟨4, _⟩ => ⟨S1x512x512, .f32⟩
  | .local _ .vmem, ⟨5, _⟩ => ⟨S1x512x512, .f32⟩
  | _, _ => ⟨S4x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

class Facts₀ : Prop where
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  reduces_S512x128_S512 : S512x128.Reduces [1] S512
  shapeCasts_S512_S512x1 : S512.ShapeCasts S512x1
  transposes_S512x128_p1_0_S128x512 : S512x128.Transposes [1, 0] S128x512
  transposes_S512x1_p1_0_S1x512 : S512x1.Transposes [1, 0] S1x512
  broadcasts_S512x1_S512x512 : S512x1.Broadcasts S512x512
  broadcasts_S1x512_S512x512 : S1x512.Broadcasts S512x512
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  shapeCasts_S512x512_S1x512x512 : S512x512.ShapeCasts S1x512x512
  dot_S512x128_S128x512_S512x512_1_0_0_1_n_n_wf : DotDims.WF S512x128 S128x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x128.size a ≤ S4x2048x128.size a
  hwx0_0 : ∀ i : grid0.Coords, EltTy.bits .f32 = 32 ∨ (Rect.block (s := S4x2048x128) S1x512x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x128.size a ≤ S4x2048x128.size a
  hwx0_1 : ∀ i : grid0.Coords, EltTy.bits .f32 = 32 ∨ (Rect.block (s := S4x2048x128) S1x512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x512.size a ≤ S4x2048x2048.size a
  hwx0_2 : ∀ i : grid0.Coords, EltTy.bits .f32 = 32 ∨ (Rect.block (s := S4x2048x2048) S1x512x512.size (cc0_transform_2 i) (hinb0_2 i)).WholeWords (EltTy.packing .f32)

variable [Facts₀]

def dot_S512x128_S128x512_S512x512_1_0_0_1_n_n : DotDims S512x128 S128x512 S512x512 where
  lhsContracting := [1]
  rhsContracting := [0]
  lhsNonContracting := [0]
  rhsNonContracting := [1]
  lhsBatch := []
  rhsBatch := []
  wf := dot_S512x128_S128x512_S512x512_1_0_0_1_n_n_wf

abbrev win0_0 : Pipeline.Window sig grid0 :=
  Pipeline.Window.ofSpec (Memref.whole main_arg0) S1x512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x512x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x512x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x2048x128 : Shape := ⟨3, ![4, 2048, 128]⟩
abbrev S_ : Shape := ⟨0, ![]⟩
abbrev S4x2048 : Shape := ⟨2, ![4, 2048]⟩
abbrev S4x2048x2048 : Shape := ⟨3, ![4, 2048, 2048]⟩
abbrev S4x2048x1 : Shape := ⟨3, ![4, 2048, 1]⟩
abbrev S4x1x2048 : Shape := ⟨3, ![4, 1, 2048]⟩

abbrev nBuf : Space → Nat
  | .hbm => 21
  | .vmem => 0
  | .smem => 0
  | _ => 0

abbrev bufTy : (tb : Table) → Fin (tcTables nBuf tb) → BufTy
  | .hbm, ⟨0, _⟩ => ⟨S4x2048x128, .f32⟩
  | .hbm, ⟨1, _⟩ => ⟨S4x2048x128, .f32⟩
  | .hbm, ⟨2, _⟩ => ⟨S_, .f32⟩
  | .hbm, ⟨3, _⟩ => ⟨S4x2048, .f32⟩
  | .hbm, ⟨4, _⟩ => ⟨S4x2048x2048, .f32⟩
  | .hbm, ⟨5, _⟩ => ⟨S4x2048x1, .f32⟩
  | .hbm, ⟨6, _⟩ => ⟨S4x1x2048, .f32⟩
  | .hbm, ⟨7, _⟩ => ⟨S4x2048x2048, .f32⟩
  | .hbm, ⟨8, _⟩ => ⟨S4x2048x2048, .f32⟩
  | .hbm, ⟨9, _⟩ => ⟨S4x2048x2048, .f32⟩
  | .hbm, ⟨10, _⟩ => ⟨S_, .f32⟩
  | .hbm, ⟨11, _⟩ => ⟨S4x2048x2048, .f32⟩
  | .hbm, ⟨12, _⟩ => ⟨S4x2048x2048, .f32⟩
  | .hbm, ⟨13, _⟩ => ⟨S4x2048x2048, .f32⟩
  | .hbm, ⟨14, _⟩ => ⟨S_, .f32⟩
  | .hbm, ⟨15, _⟩ => ⟨S4x2048x2048, .f32⟩
  | .hbm, ⟨16, _⟩ => ⟨S4x2048x2048, .f32⟩
  | .hbm, ⟨17, _⟩ => ⟨S_, .f32⟩
  | .hbm, ⟨18, _⟩ => ⟨S4x2048x2048, .f32⟩
  | .hbm, ⟨19, _⟩ => ⟨S4x2048x2048, .f32⟩
  | .hbm, ⟨20, _⟩ => ⟨S4x2048x2048, .f32⟩
  | _, _ => ⟨S4x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst_0 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst_1 : Ref sig .tc := ⟨.hbm, 14, rfl⟩
abbrev main_v11 : Ref sig .tc := ⟨.hbm, 15, rfl⟩
abbrev main_v12 : Ref sig .tc := ⟨.hbm, 16, rfl⟩
abbrev main_cst_2 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]

class Facts₀ : Prop where
  reducesTo_S4x2048x128_S4x2048_d2 : S4x2048x128.ReducesTo [2] S4x2048
  h_S_ : 0 < S_.numel
  bcast_S4x2048_S4x2048x1_0_1 : S4x2048.BroadcastsInDim S4x2048x1 (![0, 1] : Fin 2 → Fin S4x2048x1.rank)
  bcast_S4x2048_S4x1x2048_0_2 : S4x2048.BroadcastsInDim S4x1x2048 (![0, 2] : Fin 2 → Fin S4x1x2048.rank)
  bcast_S4x2048x1_S4x2048x2048_0_1_2 : S4x2048x1.BroadcastsInDim S4x2048x2048 (![0, 1, 2] : Fin 3 → Fin S4x2048x2048.rank)
  bcast_S4x1x2048_S4x2048x2048_0_1_2 : S4x1x2048.BroadcastsInDim S4x2048x2048 (![0, 1, 2] : Fin 3 → Fin S4x2048x2048.rank)
  bcast_S_S4x2048x2048 : S_.BroadcastsInDim S4x2048x2048 (![] : Fin 0 → Fin S4x2048x2048.rank)
  dot_S4x2048x128_S4x2048x128_S4x2048x2048_2_2_1_1_0_0_wf : DotDims.WF S4x2048x128 S4x2048x128 S4x2048x2048 [2] [2] [1] [1] [0] [0]

variable [Facts₀]

def dot_S4x2048x128_S4x2048x128_S4x2048x2048_2_2_1_1_0_0 : DotDims S4x2048x128 S4x2048x128 S4x2048x2048 where
  lhsContracting := [2]
  rhsContracting := [2]
  lhsNonContracting := [1]
  rhsNonContracting := [1]
  lhsBatch := [0]
  rhsBatch := [0]
  wf := dot_S4x2048x128_S4x2048x128_S4x2048x2048_2_2_1_1_0_0_wf

class Facts : Prop extends Facts₀ where

variable [Facts]
-- ==== Proof.LibSharedFrame.lean ====
/-
  The launch of a one-region pipeline program whose windows may read ONE array through several input windows.

  When two input windows stand on the same array, the array's buffer cannot be handed to each of them whole: its
  full share is divided among the windows on it, each holding the array at its own share for the length of the
  region. What the certificate owes for that is one entailment, `hsplit`: the distinct buffers behind the windows'
  arrays, each whole at the full share at the region's entry contents, yield every window's array at the share its
  proof data names. Everything else is as for windows on distinct arrays: the region's invariant is the core's scoped
  buffers that are no staging buffer (at some contents each), constant from point to point; no semaphore of the kernel's
  own; nothing owed. The conclusion is the frame run's post: every window's array ends at what the library computes
  from the proof data (an input at its entry contents, an output at those overwritten by each write-back), and every
  unscoped buffer that is no window's array ends as the region found it.
-/
import Idealize.ShloMosaic.Lib.Pipeline.Frame

noncomputable section

namespace Idealize.ShloMosaic.Pipeline.SharedFrame

open Idealize.ShloMosaic Idealize.ShloMosaic.Pipeline
open Idealize.SL
open Idealize.SL.BI (sProp bigSep)
open scoped Idealize.SL.BI
open Idealize.SL.BI.BIBase Idealize.SL.BI.Laws Idealize.SL.Sem Idealize.SL.ProofMode
open Idealize.SL.RA
open Idealize.ShloMosaic.Rounds
open TcCoe

set_option Elab.async false

variable {nD : Nat} {τ : Topo} {sig : RefSig} {Val : EltTy → Type}
variable {Λ₀ : SL.Sem.Labels} {P : Type} [Fintype P] [DecidableEq P] [∀ e, Nonempty (Val e)]

local notation "𝕄" => MT nD τ sig Unit Val ℕ (UR sig nD τ) ℕ

variable (cfgs : P → Cfg sig Λ₀)
  (dats : (p : P) → (c : Dev nD) → Dat τ Val Unit ℕ (UR sig nD τ) ℕ (cfgs p) c) (p : P)
  (defs₀ : Defs nD τ sig Val Λ₀) (𝒱₀ : Variants)

local notation "cfg" => cfgs p
local notation "𝔻" => Pipeline.defs (fun q => Cfg.toPCfg (Val := Val) (cfgs q)) defs₀

/-- The frame run of a one-region program whose windows may share arrays: the layout facts are taken one by one
    (the staging cells pairwise distinct, the windows laid out but for their arrays' distinctness, no block empty,
    arrays and staging memrefs whole buffers), the proof data's invariant is the scoped rest at every point, and
    `hsplit` says how the buffers behind the arrays make every window's array at its share. -/
theorem θ_run_frame_shared
    (hcell : Function.Injective (cellOf (nD := nD) (τ := τ) cfgs))
    (hwin : WinFacts₀ (cfg).spec)
    (hpos : ∀ w : Fin (cfg).W, 0 < ((cfg).spec w).block.numel)
    (harr : ∀ w : Fin (cfg).W, ((cfg).spec w).arr.IsWhole)
    (hstage : ∀ (w : Fin (cfg).W) (s : Fin ((cfg).spec w).nbuf), (((cfg).spec w).stage s).IsWhole)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (cfg).spec c (V c) : sProp 𝕄) ⊢ (dats p c).arrays ((dats p c).arrAt · 0))
    (hΦ : ∀ c t, (dats p c).Φ t = scopedRest (Ix := Unit) (Name := ℕ) (U := UR sig nD τ) (Lvl := ℕ) (Val := Val) (cfg).spec c) :
    θ_run 𝔻 (onTc main) (s₀ m g) (FramePost cfgs dats p V) := by
  classical
  exact θ_run_region_noSem_shared cfgs dats () hcell p hwin emb₁ defs₀ 𝒱₀ m g main hbody hpos harr hstage howed
    (u₀ := initOf (cells cfgs hcell) (launchToks cfgs hcell))
    (hu₀ := (show (ownU _ : sProp 𝕄) ⊢ BI.own (emb₁ (initOf (cells cfgs hcell) (launchToks cfgs hcell))) from .rfl))
    (V := V) (hmain := hmain) (hsplit := hsplit)
    (X := fun _ => iprop(emp)) (Y := fun _ => iprop(emp))
    (Z := fun c => unscopedRest (Ix := Unit) (Name := ℕ) (U := UR sig nD τ) (Lvl := ℕ) (cfg).spec c (V c))
    (hX := fun c => by
      iintro HU
      isplitr; · iempintro
      iexact HU)
    (hin := fun c => by
      rw [hΦ]
      iintro ⟨-, HR⟩
      iexact HR)
    (hout := fun c => by
      rw [hΦ]
      iintro HR
      isplitr; · iempintro
      iexact HR)
    (QY := fun c s => ∀ b ∈ restRefs sig (cfg).spec, s.mem ((c.tc : Thread nD τ).loc b) = V c b)
    (hY := fun c s' => by
      iintro ⟨-, HU, HSI⟩
      unfold unscopedRest
      imodintro
      iapply (pointsTo_read_all (restRefs sig (cfg).spec) (fun b => (c.tc : Thread nD τ).loc b) (V c) s')
      isplitl [HU] <;> iassumption)
    (hQ := fun s h c => ⟨(h c).1, (h c).2⟩)

end Idealize.ShloMosaic.Pipeline.SharedFrame

end
-- ==== Proof.BitsFrame.lean ====
/-
  The frame of the tiled distance kernel, for any reading of its floats.

  The region runs the body at the 64 points (b, i, j) of a 4 x 4 x 4 grid. Two input windows stand on the SAME array
  of points: window 0 stages the slab of 512 row points (b, i), window 1 the slab of 512 column points (b, j); the
  output window stages tile (b, i, j) of the distance array and writes it back at every point. The body loads the two
  slabs whole, computes one value from them, loads the tile (and ignores what it read) and stores the value over the
  whole tile.

  Proof data. After the body each input buffer holds its slab again and the output buffer holds the canon of the one
  store over the two slabs (`tileOf`). The points array is held at its left half share by window 0 and at its right
  half share by window 1; the distance array whole. The invariant is the scoped buffers that are no staging buffer.
  The body's triple is found by symbolic execution; the launch is the shared-array frame run, its one extra
  obligation being that the points array's full share splits into the two halves (`arrays_split`).
-/
import proofs.«119109_j15040975470940_1_alg».proof.Proof.Gen.Kernel.Launch
import proofs.«119109_j15040975470940_1_alg».proof.Proof.Gen.Kernel.Skeleton
import proofs.«119109_j15040975470940_1_alg».proof.Proof.Gen.Kernel.Points
import proofs.«119109_j15040975470940_1_alg».proof.Proof.LibSharedFrame
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to its region -/

/-- The core's buffers when the region is entered: as launched (the program is the region alone). -/
abbrev V (c : Dev nD) (b : Ref sig .tc) : Buf (Elt F) ((c : Thread nD τ).loc b) := m ((c : Thread nD τ).loc b)

theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

theorem V_main_arg0 (c : Dev nD) : V m c main_arg0 = m ((c : Thread nD τ).loc main_arg0) := rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The row slab is in its buffer at every point, fetched there or not: where it is not fetched the block index has
    not moved since the point before. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The column slab likewise. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in the tile's buffer -/

/-- The whole slab and the whole tile, as rectangles. -/
abbrev rSlab : Rect S1x512x128 := Rect.unit (s := S1x512x128) ![0, 0, 0] S1x512x128.size inb_S1x512x128_S1x512x128_0_0_0
abbrev rTile : Rect S1x512x512 := Rect.unit (s := S1x512x512) ![0, 0, 0] S1x512x512.size inb_S1x512x512_S1x512x512_0_0_0

/-- The tile's buffer after the body: its one store, of the payload over the two slabs. -/
def tileOf (x0 : Vec F S1x512x128 .f32) (x1 : Vec F S1x512x128 .f32) : Vec F S1x512x512 .f32 :=
  View.canon [⟨rTile, k0_pay1 (View.ld x0 rSlab) (View.ld x1 rSlab)⟩]

/-- The store is of the whole tile, so it covers the buffer. -/
theorem cover_tile (p0 : Vec F S1x512x512 .f32) (y : S1x512x512.Idx) :
    ∃ pc ∈ ([⟨rTile, p0⟩] : List (View.Piece (Elt F) S1x512x512 .f32)), y ∈ pc.1.set :=
  View.cover_of_tiled [⟨rTile, p0⟩] S1x512x512.size (by rfl) y

/-! ## The body's triple -/

set_option maxHeartbeats 1000000 in
/-- On whole staging memrefs, the slabs' at contents `x0`, `x1` and the tile's at anything, the body runs to the
    continuation holding the slabs' as they were and the tile's at `tileOf x0 x1`. -/
theorem sound_kernel (c : Dev nD) (E : Set ℕ) (i : grid0.Coords) (arg3 : Memref sig .tc .vmem S1x512x128 .f32) (harg3 : arg3.IsWhole) (arg4 : Memref sig .tc .vmem S1x512x128 .f32) (harg4 : arg4.IsWhole) (arg5 : Memref sig .tc .vmem S1x512x512 .f32) (harg5 : arg5.IsWhole)
    (x0 : Vec F S1x512x128 .f32) (x1 : Vec F S1x512x128 .f32) (K : PUnit → sProp 𝕄) :
    iprop(owns (c : Thread nD τ) arg3 fullShare x0 ∗ owns (c : Thread nD τ) arg4 fullShare x1 ∗ (∃ d, owns (c : Thread nD τ) arg5 fullShare d)
        ∗ (iprop(owns (c : Thread nD τ) arg3 fullShare x0 ∗ owns (c : Thread nD τ) arg4 fullShare x1 ∗ owns (c : Thread nD τ) arg5 fullShare (tileOf x0 x1)) -∗ K ⟨⟩))
      ⊢ wp frame (wpE (defs₀ (F := F)) Variants.none c none) E (cc0__edm_kernel i arg3 harg3 arg4 harg4 arg5 harg5) K := by
  simp only [cc0__edm_kernel_eq_skeleton]; unfold cc0__edm_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_tile _)

/-! ## The proof data -/

/-- The proof data on core `c`: the arrays as the region finds them; after the body each slab's buffer at its block
    and the tile's at `tileOf` of the two; the invariant the scoped rest; the points array at its left half for the
    row window and at its right half for the column window; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => tileOf (iblk m c 0 t) (iblk m c 1 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = tileOf (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the slabs' buffers hold their blocks, so the triple applies; the invariant and what the
    core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## The points array's share, split between its two windows -/

/-- Each array's share, and its contents before the first point. -/
theorem share0 (c : Dev nD) : (dats m 0 c).share 0 = fullShare.left := rfl
theorem share1 (c : Dev nD) : (dats m 0 c).share 1 = fullShare.right := rfl
theorem share2 (c : Dev nD) : (dats m 0 c).share 2 = fullShare := rfl
theorem arrAt_zero (c : Dev nD) (w : Fin cfg0.W) : (dats m 0 c).arrAt w 0 = V m c (Pipeline.arrRef spec0 w) := rfl

/-- The two buffers behind the three windows' arrays, each whole at the full share, make the three arrays at their
    shares: the points array's full share is its left half and its right half. -/
theorem arrays_split (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  have e : (dats m 0 c).arrays ((dats m 0 c).arrAt · 0)
      = iprop((((c.tc : Thread nD τ).loc main_arg0) ↦{fullShare.left} V m c main_arg0)
          ∗ (((c.tc : Thread nD τ).loc main_arg0) ↦{fullShare.right} V m c main_arg0)
          ∗ (((c.tc : Thread nD τ).loc main_v0) ↦{fullShare} V m c main_v0)) := by
    unfold Dat.arrays
    rw [bigSep_W0]
    dsimp only
    rw [arrAt_zero m c 0, arrAt_zero m c 1, arrAt_zero m c 2, share0, share1, share2,
      (arr_whole0 0).set_eq_univ, (arr_whole0 2).set_eq_univ]
  rw [e]
  unfold Pipeline.arrBufs
  rw [show (Finset.univ.image (Pipeline.arrRef spec0) : Finset (Ref sig .tc)) = {main_arg0, main_v0} from by decide]
  rw [bigSep_insert (by decide), bigSep_singleton]
  refine (show iprop((((c.tc : Thread nD τ).loc main_arg0) ↦{fullShare} V m c main_arg0) ∗ (((c.tc : Thread nD τ).loc main_v0) ↦{fullShare} V m c main_v0)) ⊢ _ from ?_)
  iintro ⟨HA, HO⟩
  ihave HA := (pointsTo_share (PosShare.mem_left_op_right fullShare)).1 $$ HA
  icases HA with ⟨HA₁, HA₂⟩
  isplitl [HA₁]; · iexact HA₁
  isplitl [HA₂]; · iexact HA₂
  iexact HO

/-! ## The run and the frame -/

set_option backward.isDefEq.respectTransparency.types false in
theorem run_main : θ_run defs (onTc (τ := τ) (main (F := F))) (s₀ m ρ) (Pipeline.FramePost cfgs (dats m) 0 (V m)) :=
  Pipeline.SharedFrame.θ_run_frame_shared cfgs (dats m) (0 : Fin 1) defs₀ Variants.none cellOf_inj winFacts₀0 block_pos0 arr_whole0 stage_whole0 m ρ main
    (hbody := fun c => (body_obligation m c).loose) (howed := fun _ _ => rfl) (V := V m) (hmain := hmain m Variants.none)
    (hsplit := arrays_split m) (hΦ := fun _ _ => rfl)

/-- The frame: every weakly fair execution from a memory with zero counters terminates, and the points array ends
    as it was launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c).1 0).trans (((dats m 0 c).arrAt_in 0 rfl _).trans ((A_eq m c 0).trans (V_main_arg0 m c)))) (run_main m ρ)

end Cert.Kernel.Hand

end
-- ==== Proof.IdealFrame.lean ====
/-
  The frame of the tiled distance kernel, for any reading of its floats.

  The region runs the body at the 64 points (b, i, j) of a 4 x 4 x 4 grid. Two input windows stand on the SAME array
  of points: window 0 stages the slab of 512 row points (b, i), window 1 the slab of 512 column points (b, j); the
  output window stages tile (b, i, j) of the distance array and writes it back at every point. The body loads the two
  slabs whole, computes one value from them, loads the tile (and ignores what it read) and stores the value over the
  whole tile.

  Proof data. After the body each input buffer holds its slab again and the output buffer holds the canon of the one
  store over the two slabs (`tileOf`). The points array is held at its left half share by window 0 and at its right
  half share by window 1; the distance array whole. The invariant is the scoped buffers that are no staging buffer.
  The body's triple is found by symbolic execution; the launch is the shared-array frame run, its one extra
  obligation being that the points array's full share splits into the two halves (`arrays_split`).
-/
import proofs.«119109_j15040975470940_1_alg».proof.Proof.Gen.KernelIdeal.Launch
import proofs.«119109_j15040975470940_1_alg».proof.Proof.Gen.KernelIdeal.Skeleton
import proofs.«119109_j15040975470940_1_alg».proof.Proof.Gen.KernelIdeal.Points
import proofs.«119109_j15040975470940_1_alg».proof.Proof.LibSharedFrame
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to its region -/

/-- The core's buffers when the region is entered: as launched (the program is the region alone). -/
abbrev V (c : Dev nD) (b : Ref sig .tc) : Buf (Elt F) ((c : Thread nD τ).loc b) := m ((c : Thread nD τ).loc b)

theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

theorem V_main_arg0 (c : Dev nD) : V m c main_arg0 = m ((c : Thread nD τ).loc main_arg0) := rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The row slab is in its buffer at every point, fetched there or not: where it is not fetched the block index has
    not moved since the point before. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The column slab likewise. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in the tile's buffer -/

/-- The whole slab and the whole tile, as rectangles. -/
abbrev rSlab : Rect S1x512x128 := Rect.unit (s := S1x512x128) ![0, 0, 0] S1x512x128.size inb_S1x512x128_S1x512x128_0_0_0
abbrev rTile : Rect S1x512x512 := Rect.unit (s := S1x512x512) ![0, 0, 0] S1x512x512.size inb_S1x512x512_S1x512x512_0_0_0

/-- The tile's buffer after the body: its one store, of the payload over the two slabs. -/
def tileOf (x0 : Vec F S1x512x128 .f32) (x1 : Vec F S1x512x128 .f32) : Vec F S1x512x512 .f32 :=
  View.canon [⟨rTile, k0_pay1 (View.ld x0 rSlab) (View.ld x1 rSlab)⟩]

/-- The store is of the whole tile, so it covers the buffer. -/
theorem cover_tile (p0 : Vec F S1x512x512 .f32) (y : S1x512x512.Idx) :
    ∃ pc ∈ ([⟨rTile, p0⟩] : List (View.Piece (Elt F) S1x512x512 .f32)), y ∈ pc.1.set :=
  View.cover_of_tiled [⟨rTile, p0⟩] S1x512x512.size (by rfl) y

/-! ## The body's triple -/

set_option maxHeartbeats 1000000 in
/-- On whole staging memrefs, the slabs' at contents `x0`, `x1` and the tile's at anything, the body runs to the
    continuation holding the slabs' as they were and the tile's at `tileOf x0 x1`. -/
theorem sound_kernel (c : Dev nD) (E : Set ℕ) (i : grid0.Coords) (arg3 : Memref sig .tc .vmem S1x512x128 .f32) (harg3 : arg3.IsWhole) (arg4 : Memref sig .tc .vmem S1x512x128 .f32) (harg4 : arg4.IsWhole) (arg5 : Memref sig .tc .vmem S1x512x512 .f32) (harg5 : arg5.IsWhole)
    (x0 : Vec F S1x512x128 .f32) (x1 : Vec F S1x512x128 .f32) (K : PUnit → sProp 𝕄) :
    iprop(owns (c : Thread nD τ) arg3 fullShare x0 ∗ owns (c : Thread nD τ) arg4 fullShare x1 ∗ (∃ d, owns (c : Thread nD τ) arg5 fullShare d)
        ∗ (iprop(owns (c : Thread nD τ) arg3 fullShare x0 ∗ owns (c : Thread nD τ) arg4 fullShare x1 ∗ owns (c : Thread nD τ) arg5 fullShare (tileOf x0 x1)) -∗ K ⟨⟩))
      ⊢ wp frame (wpE (defs₀ (F := F)) Variants.none c none) E (cc0__edm_kernel i arg3 harg3 arg4 harg4 arg5 harg5) K := by
  simp only [cc0__edm_kernel_eq_skeleton]; unfold cc0__edm_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_tile _)

/-! ## The proof data -/

/-- The proof data on core `c`: the arrays as the region finds them; after the body each slab's buffer at its block
    and the tile's at `tileOf` of the two; the invariant the scoped rest; the points array at its left half for the
    row window and at its right half for the column window; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => tileOf (iblk m c 0 t) (iblk m c 1 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = tileOf (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the slabs' buffers hold their blocks, so the triple applies; the invariant and what the
    core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## The points array's share, split between its two windows -/

/-- Each array's share, and its contents before the first point. -/
theorem share0 (c : Dev nD) : (dats m 0 c).share 0 = fullShare.left := rfl
theorem share1 (c : Dev nD) : (dats m 0 c).share 1 = fullShare.right := rfl
theorem share2 (c : Dev nD) : (dats m 0 c).share 2 = fullShare := rfl
theorem arrAt_zero (c : Dev nD) (w : Fin cfg0.W) : (dats m 0 c).arrAt w 0 = V m c (Pipeline.arrRef spec0 w) := rfl

/-- The two buffers behind the three windows' arrays, each whole at the full share, make the three arrays at their
    shares: the points array's full share is its left half and its right half. -/
theorem arrays_split (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  have e : (dats m 0 c).arrays ((dats m 0 c).arrAt · 0)
      = iprop((((c.tc : Thread nD τ).loc main_arg0) ↦{fullShare.left} V m c main_arg0)
          ∗ (((c.tc : Thread nD τ).loc main_arg0) ↦{fullShare.right} V m c main_arg0)
          ∗ (((c.tc : Thread nD τ).loc main_v0) ↦{fullShare} V m c main_v0)) := by
    unfold Dat.arrays
    rw [bigSep_W0]
    dsimp only
    rw [arrAt_zero m c 0, arrAt_zero m c 1, arrAt_zero m c 2, share0, share1, share2,
      (arr_whole0 0).set_eq_univ, (arr_whole0 2).set_eq_univ]
  rw [e]
  unfold Pipeline.arrBufs
  rw [show (Finset.univ.image (Pipeline.arrRef spec0) : Finset (Ref sig .tc)) = {main_arg0, main_v0} from by decide]
  rw [bigSep_insert (by decide), bigSep_singleton]
  refine (show iprop((((c.tc : Thread nD τ).loc main_arg0) ↦{fullShare} V m c main_arg0) ∗ (((c.tc : Thread nD τ).loc main_v0) ↦{fullShare} V m c main_v0)) ⊢ _ from ?_)
  iintro ⟨HA, HO⟩
  ihave HA := (pointsTo_share (PosShare.mem_left_op_right fullShare)).1 $$ HA
  icases HA with ⟨HA₁, HA₂⟩
  isplitl [HA₁]; · iexact HA₁
  isplitl [HA₂]; · iexact HA₂
  iexact HO

/-! ## The run and the frame -/

set_option backward.isDefEq.respectTransparency.types false in
theorem run_main : θ_run defs (onTc (τ := τ) (main (F := F))) (s₀ m ρ) (Pipeline.FramePost cfgs (dats m) 0 (V m)) :=
  Pipeline.SharedFrame.θ_run_frame_shared cfgs (dats m) (0 : Fin 1) defs₀ Variants.none cellOf_inj winFacts₀0 block_pos0 arr_whole0 stage_whole0 m ρ main
    (hbody := fun c => (body_obligation m c).loose) (howed := fun _ _ => rfl) (V := V m) (hmain := hmain m Variants.none)
    (hsplit := arrays_split m) (hΦ := fun _ _ => rfl)

/-- The frame: every weakly fair execution from a memory with zero counters terminates, and the points array ends
    as it was launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c).1 0).trans (((dats m 0 c).arrAt_in 0 rfl _).trans ((A_eq m c 0).trans (V_main_arg0 m c)))) (run_main m ρ)

end Cert.KernelIdeal.Hand

end
-- ==== Proof.Spec.lean ====
/-
  The function both programs compute, as a plain formula over the extended reals.

  For an array `x` of four batches of 2048 points in 128 dimensions, the entry (b, p, q) of the result is
  `sqrt (max (|x_p|^2 + |x_q|^2 - 2 <x_p, x_q>) 0 + eps)`: the Euclidean distance between points `p` and `q` of batch
  `b`, written through the squared norms and the inner product, clamped at zero and regularised by `eps` before the root.
  The three literals (2, 0 and eps = f32(1e-7)) are kept as the words both programs print; they are never evaluated.
  `blockDist` is the same formula for one 512 x 512 tile of the result, over the two 512 x 128 slabs of points it depends on.
-/
import Idealize.ShloMosaic.PureOps.Ideal.Laws
import Idealize.ShloMosaic.Lib.ValueIdx

noncomputable section

open scoped BigOperators

namespace Cert.Edm

open Idealize.ShloMosaic Idealize.ShloMosaic.ValueIdx

/-- The points: 4 batches of 2048 points in 128 dimensions. -/
abbrev SPts : Shape := ⟨3, ![4, 2048, 128]⟩
/-- The distances: 4 batches of 2048 x 2048. -/
abbrev SDist : Shape := ⟨3, ![4, 2048, 2048]⟩
/-- One slab of 512 points, and one tile of 512 x 512 distances. -/
abbrev SSlab : Shape := ⟨3, ![1, 512, 128]⟩
abbrev STile : Shape := ⟨3, ![1, 512, 512]⟩

/-- The literals, as extended reals. -/
def two : EReal := Ideal.ofBits .f32 0x40000000#32
def zero : EReal := Ideal.ofBits .f32 0x00000000#32
def eps : EReal := Ideal.ofBits .f32 0x33D6BF95#32

/-- From the two squared norms and the inner product to the regularised distance. -/
def close (sp sq ip : EReal) : EReal := Ideal.sqrt (max (sp + sq - two * ip) zero + eps)

/-- The squared norm of point `r` of batch `b`. -/
def sqNorm (x : SPts.Idx → EReal) (b : Fin 4) (r : Fin 2048) : EReal := ∑ k : Fin 128, x (ix3 b r k) * x (ix3 b r k)
/-- The inner product of points `p` and `q` of batch `b`. -/
def inner (x : SPts.Idx → EReal) (b : Fin 4) (p q : Fin 2048) : EReal := ∑ k : Fin 128, x (ix3 b p k) * x (ix3 b q k)
/-- The regularised distance between points `p` and `q` of batch `b`. -/
def dist (x : SPts.Idx → EReal) (b : Fin 4) (p q : Fin 2048) : EReal :=
  close (sqNorm x b p) (sqNorm x b q) (inner x b p q)
/-- The whole distance array. -/
def distMat (x : SPts.Idx → EReal) : SDist.Idx → EReal := fun i => dist x (i 0) (i 1) (i 2)

/-- The same for one tile: row points from the slab `u`, column points from the slab `v`. -/
def slabSq (u : SSlab.Idx → EReal) (r : Fin 512) : EReal := ∑ k : Fin 128, u (ix3 0 r k) * u (ix3 0 r k)
def slabInner (u v : SSlab.Idx → EReal) (p q : Fin 512) : EReal := ∑ k : Fin 128, u (ix3 0 p k) * v (ix3 0 q k)
def tileDist (u v : SSlab.Idx → EReal) : STile.Idx → EReal := fun j =>
  close (slabSq u (j 1)) (slabSq v (j 2)) (slabInner u v (j 1) (j 2))

end Cert.Edm

end
-- ==== Proof.TileValue.lean ====
/-
  The value one grid point stores, read entry by entry.

  The kernel's body loads two slabs `u, v` of 512 points in 128 dimensions and stores one 512 x 512 tile. Entry `(p, q)`
  of the tile is built from three numbers: the squared norm of row `p` of `u` (the squares summed over the 128 lanes, kept
  as a column and spread along the rows), the squared norm of row `q` of `v` (the same column turned into a row and spread
  along the columns), and the inner product of the two rows (the matrix of `u` times the transposed matrix of `v`, summed
  into a zero matrix). The tile's entry is then `sqrt (max (|u_p|^2 + |v_q|^2 - 2 <u_p, v_q>) 0 + eps)`, which is the
  specification's `tileDist u v` at `(0, p, q)`. Over the extended reals every operation is exact, so each layout operation
  only renames an index and each sum is the plain sum over the 128 lanes; the three literals are never evaluated.
-/
import proofs.«119109_j15040975470940_1_alg».proof.Proof.Gen.KernelIdeal.Skeleton
import proofs.«119109_j15040975470940_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Edm.Tile

open Idealize.ShloMosaic Idealize.ShloMosaic.ValueIdx Cert.KernelIdeal Cert.KernelIdeal.Gen

/-! ## The layout operations of the tile, read at coordinates -/

/-- A slab `[1, 512, 128]` viewed as the matrix `[512, 128]`: entry `(r, k)` is the slab's `(0, r, k)`. -/
theorem slab_apply (x : Vec Ideal S1x512x128 .f32) (h : S1x512x128.ShapeCasts S512x128) (r : Fin 512) (k : Fin 128) :
    shapeCast S512x128 x h (ix2 r k) = x (ix3 0 r k) :=
  shapeCast_1ab_ab_apply x h r k

/-- The sum over the 128 lanes of a `[512, 128]` matrix, at row `r`. -/
theorem laneSum_apply (y : FVec Ideal S512x128 .f32) (h : S512x128.Reduces [1] S512) (hφ : FKind.Formats .f32)
    (hacc : (0x00000000#32 : BitVec 32) = 0x00000000#32) (r : Fin 512) :
    multiReduction (F := Ideal) .add [1] S512 y 0x00000000#32 h hφ hacc (ix1 r) = ∑ k : Fin 128, y (ix2 r k) := by
  refine (Ideal.multiReduction_add_single y _ h hφ hacc (ix1 r)).trans ?_
  show ∑ k : Fin 128, y (h.lift (ix1 r) k) = _
  refine Finset.sum_congr rfl fun k _ => congrArg y ?_
  funext a
  refine Fin.ext ?_
  match a with
  | ⟨0, _⟩ => rfl
  | ⟨1, _⟩ => rfl

/-- A vector `[512]` viewed as the column `[512, 1]`. -/
theorem column_apply {α : Type} (x : S512.Idx → α) (h : S512.ShapeCasts S512x1) (r : Fin 512) (c : Fin 1) :
    shapeCast S512x1 x h (ix2 r c) = x (ix1 r) :=
  shapeCast_apply x h _ _ (by
    rw [Shape.rowMajor_val_one, Shape.rowMajor_val_two]
    show r.val = r.val * 1 + c.val
    have := c.isLt
    omega)

/-- The column `[512, 1]` spread over the 512 columns of a `[512, 512]` matrix: entry `(p, q)` is the column's `p`. -/
theorem spreadColumn_apply {α : Type} (x : S512x1.Idx → α) (h : S512x1.Broadcasts S512x512) (p q : Fin 512) :
    broadcastTo S512x512 x h (ix2 p q) = x (ix2 p (0 : Fin 1)) := by
  refine broadcastTo_apply x h (ix2 p q) (ix2 p (0 : Fin 1)) fun ax => ?_
  match ax with
  | ⟨0, _⟩ =>
    show p.val = if (512 : Nat) = 1 then 0 else p.val
    rw [if_neg (by decide)]
  | ⟨1, _⟩ =>
    show (0 : Nat) = if (1 : Nat) = 1 then 0 else q.val
    rw [if_pos rfl]

/-- The column `[512, 1]` turned into the row `[1, 512]`. -/
theorem rowOfColumn_apply {α : Type} (x : S512x1.Idx → α) (h : S512x1.Transposes [1, 0] S1x512) (c : Fin 1) (q : Fin 512) :
    transpose S1x512 [1, 0] x h (ix2 c q) = x (ix2 q c) :=
  transpose_ix2_apply x h c q

/-- The row `[1, 512]` spread over the 512 rows of a `[512, 512]` matrix: entry `(p, q)` is the row's `q`. -/
theorem spreadRow_apply {α : Type} (x : S1x512.Idx → α) (h : S1x512.Broadcasts S512x512) (p q : Fin 512) :
    broadcastTo S512x512 x h (ix2 p q) = x (ix2 (0 : Fin 1) q) :=
  broadcastTo_1b_ab_apply x h p q

/-- The matrix `[512, 128]` transposed: entry `(k, r)` is the matrix's `(r, k)`. -/
theorem transposed_apply {α : Type} (x : S512x128.Idx → α) (h : S512x128.Transposes [1, 0] S128x512) (k : Fin 128) (r : Fin 512) :
    transpose S128x512 [1, 0] x h (ix2 k r) = x (ix2 r k) :=
  transpose_ix2_apply x h k r

/-! ## The squared norms of a slab's points, as the tile's two addends -/

/-- The squared norm of row `r` of a slab, as the kernel forms it: square, sum over the lanes. -/
theorem sqNormVec_apply (x : Vec Ideal S1x512x128 .f32) (h1 : S1x512x128.ShapeCasts S512x128)
    (h2 : S512x128.Reduces [1] S512) (hφ : FKind.Formats .f32)
    (hacc : (0x00000000#32 : BitVec 32) = 0x00000000#32) (r : Fin 512) :
    multiReduction (F := Ideal) .add [1] S512 (mulf (shapeCast S512x128 x h1) (shapeCast S512x128 x h1))
      0x00000000#32 h2 hφ hacc (ix1 r) = slabSq x r := by
  rw [laneSum_apply]
  unfold slabSq
  refine Finset.sum_congr rfl fun k _ => ?_
  rw [mulf_apply, slab_apply]

/-! ## The matrix product -/

theorem lhs_dot_0 (i : S512x512.Idx) (c : dot_S512x128_S128x512_S512x512_1_0_0_1_n_n.contr.Idx) :
    (dot_S512x128_S128x512_S512x512_1_0_0_1_n_n.lhsIdx i c 0).val = (i 0).val := by
  unfold DotDims.lhsIdx
  rw [dif_neg (show ¬(0 : Fin S512x128.rank) ∈ dot_S512x128_S128x512_S512x512_1_0_0_1_n_n.lhsBatch by decide), dif_pos (show (0 : Fin S512x128.rank) ∈ dot_S512x128_S128x512_S512x512_1_0_0_1_n_n.lhsNonContracting by decide)]
  rfl
theorem lhs_dot_1 (i : S512x512.Idx) (c : dot_S512x128_S128x512_S512x512_1_0_0_1_n_n.contr.Idx) :
    (dot_S512x128_S128x512_S512x512_1_0_0_1_n_n.lhsIdx i c 1).val = (c ⟨0, by decide⟩).val :=
  dot_S512x128_S128x512_S512x512_1_0_0_1_n_n.lhsIdx_val_of_single rfl i c
theorem rhs_dot_0 (i : S512x512.Idx) (c : dot_S512x128_S128x512_S512x512_1_0_0_1_n_n.contr.Idx) :
    (dot_S512x128_S128x512_S512x512_1_0_0_1_n_n.rhsIdx i c 0).val = (c ⟨0, by decide⟩).val :=
  dot_S512x128_S128x512_S512x512_1_0_0_1_n_n.rhsIdx_val_of_single rfl i c
theorem rhs_dot_1 (i : S512x512.Idx) (c : dot_S512x128_S128x512_S512x512_1_0_0_1_n_n.contr.Idx) :
    (dot_S512x128_S128x512_S512x512_1_0_0_1_n_n.rhsIdx i c 1).val = (i 1).val := by
  unfold DotDims.rhsIdx
  rw [dif_neg (show ¬(1 : Fin S128x512.rank) ∈ dot_S512x128_S128x512_S512x512_1_0_0_1_n_n.rhsBatch by decide), dif_pos (show (1 : Fin S128x512.rank) ∈ dot_S512x128_S128x512_S512x512_1_0_0_1_n_n.rhsNonContracting by decide)]
  rfl

/-- The product of a `[512, 128]` matrix and a `[128, 512]` matrix into the zero matrix, at `(p, q)`. -/
theorem product_apply (a : FVec Ideal S512x128 .f32) (b : FVec Ideal S128x512 .f32) (p q : Fin 512) :
    matmul (F := Ideal) dot_S512x128_S128x512_S512x512_1_0_0_1_n_n none a b (constant (F := Ideal) S512x512 .f32 0x00000000#32) (ix2 p q)
      = ∑ k : Fin 128, a (ix2 p k) * b (ix2 k q) := by
  simp only [matmul]
  rw [Ideal.matmul_constant_zero_apply, ← Equiv.sum_comp (contrEquiv1 dot_S512x128_S128x512_S512x512_1_0_0_1_n_n 128 rfl rfl).symm]
  refine Finset.sum_congr rfl fun k _ => ?_
  have hk := contrEquiv1_symm_val dot_S512x128_S128x512_S512x512_1_0_0_1_n_n 128 rfl rfl k
  have el : dot_S512x128_S128x512_S512x512_1_0_0_1_n_n.lhsIdx (ix2 p q) ((contrEquiv1 dot_S512x128_S128x512_S512x512_1_0_0_1_n_n 128 rfl rfl).symm k) = ix2 p k := funext fun ax => Fin.ext (by
    match ax with
    | ⟨0, _⟩ => exact lhs_dot_0 _ _
    | ⟨1, _⟩ => exact (lhs_dot_1 _ _).trans hk)
  have er : dot_S512x128_S128x512_S512x512_1_0_0_1_n_n.rhsIdx (ix2 p q) ((contrEquiv1 dot_S512x128_S128x512_S512x512_1_0_0_1_n_n 128 rfl rfl).symm k) = ix2 k q := funext fun ax => Fin.ext (by
    match ax with
    | ⟨0, _⟩ => exact (rhs_dot_0 _ _).trans hk
    | ⟨1, _⟩ => exact rhs_dot_1 _ _)
  rw [el, er]

/-- The inner product of row `p` of one slab with row `q` of another, as the kernel forms it: the first slab's matrix
    times the second's transposed. -/
theorem gram_apply (x y : Vec Ideal S1x512x128 .f32) (h1 : S1x512x128.ShapeCasts S512x128)
    (h2 : S512x128.Transposes [1, 0] S128x512) (p q : Fin 512) :
    matmul (F := Ideal) (φ₁ := .f32) (φ₂ := .f32) dot_S512x128_S128x512_S512x512_1_0_0_1_n_n none (shapeCast S512x128 x h1) (transpose S128x512 [1, 0] (shapeCast S512x128 y h1) h2)
      (constant (F := Ideal) S512x512 .f32 0x00000000#32) (ix2 p q) = slabInner x y p q := by
  rw [product_apply]
  unfold slabInner
  refine Finset.sum_congr rfl fun k _ => ?_
  rw [transposed_apply, slab_apply, slab_apply]

/-- A square root at an index is the square root of the element. -/
theorem sqrt_apply {s : Shape} {φ : FTy} (a : FVec Ideal s φ) (i : s.Idx) : sqrt a i = Ideal.sqrt (a i) := rfl

/-! ## The tile -/

/-- The value the kernel's body stores is the specification's tile of distances over the two slabs it loaded. -/
theorem pay_eq_tileDist (u v : Vec Ideal Cert.KernelIdeal.S1x512x128 .f32) :
    Cert.KernelIdeal.Gen.k0_pay1 (F := Idealize.ShloMosaic.Ideal) u v = Cert.Edm.tileDist u v := by
  funext j
  obtain ⟨z, p, q, rfl⟩ : ∃ (z : Fin 1) (p q : Fin 512), j = ix3 z p q := ⟨j 0, j 1, j 2, eq_ix3 j⟩
  unfold k0_pay1
  refine (shapeCast_ab_1ab_apply _ _ z p q).trans ?_
  rw [sqrt_apply, addf_apply, maximumf_apply, subf_apply, addf_apply, mulf_apply, broadcast_apply, broadcast_apply,
    broadcast_apply, spreadColumn_apply, column_apply, sqNormVec_apply, spreadRow_apply, rowOfColumn_apply, column_apply,
    sqNormVec_apply, gram_apply]
  rfl

end Cert.Edm.Tile
end
-- ==== Proof.IdealValue.lean ====
/-
  What the idealized kernel leaves in the distance array: the specification's distance array of the points.

  Point (b, i, j) of the grid writes tile (b, i, j) back: rows 512 i .. 512 i + 511 and columns 512 j .. 512 j + 511 of
  batch b. The row slab it read is rows 512 i .. of the points of batch b and the column slab rows 512 j .., so entry
  (p', q') of the tile is the distance between points 512 i + p' and 512 j + q' of batch b: the tile is the block of the
  distance array at that position. The 64 tiles cover the array, each index lying in the tile of its quotients by 512.
-/
import proofs.«119109_j15040975470940_1_alg».proof.Proof.IdealFrame
import proofs.«119109_j15040975470940_1_alg».proof.Proof.TileValue
import Idealize.ShloMosaic.Lib.Pipeline.Value

set_option maxRecDepth 16384

noncomputable section

open scoped BigOperators

namespace Cert.KernelIdeal.HandValue

open Cert.KernelIdeal Cert.KernelIdeal.Gen Cert.KernelIdeal.Hand Cert.Edm
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

theorem off_zero : (![0, 0, 0] : Fin 3 → Nat) = fun _ => 0 := funext fun a => by fin_cases a <;> rfl

/-- The two slabs of a point and the points array, at their literal types. -/
abbrev rowSlab (c : Dev nD) (t : Fin cfg0.N) : SSlab.Idx → EReal := iblk m c 0 t
abbrev colSlab (c : Dev nD) (t : Fin cfg0.N) : SSlab.Idx → EReal := iblk m c 1 t
abbrev pts (c : Dev nD) : SPts.Idx → EReal := V m c main_arg0

/-- The index maps over the grid: the row slab sits at the tile's batch and row block, the column slab at the tile's
    batch and column block, both at lane block 0. -/
theorem idx_facts : ∀ t : Fin cfg0.N,
      win0_0.index t (0 : Fin 3) = win0_2.index t (0 : Fin 3)
    ∧ win0_0.index t (1 : Fin 3) = win0_2.index t (1 : Fin 3)
    ∧ win0_0.index t (2 : Fin 3) = 0
    ∧ win0_1.index t (0 : Fin 3) = win0_2.index t (0 : Fin 3)
    ∧ win0_1.index t (1 : Fin 3) = win0_2.index t (2 : Fin 3)
    ∧ win0_1.index t (2 : Fin 3) = 0 :=
  (by decide +kernel : ∀ t : Fin grid0.N, _)

/-- Every tile position is some point's. -/
theorem idx_onto : ∀ (q0 q1 q2 : Fin 4), ∃ t : Fin cfg0.N, win0_2.index t = ![q0.val, q1.val, q2.val] :=
  (by decide +kernel : ∀ (q0 q1 q2 : Fin 4), ∃ t : Fin grid0.N, win0_2.index t = ![q0.val, q1.val, q2.val])

/-- The row slab at point `t`, read at (r, k), is the points array at the tile's batch, row `512 i + r`. -/
theorem row_read (c : Dev nD) (t : Fin cfg0.N) (r : Fin 512) (k : Fin 128) (b : Fin 4) (p : Fin 2048)
    (hb : b.val = win0_2.index t (0 : Fin 3)) (hp : p.val = win0_2.index t (1 : Fin 3) * 512 + r.val) :
    rowSlab m c t (ix3 0 r k) = pts m c (ix3 b p k) := by
  obtain ⟨e0, e1, e2, e3, e4, e5⟩ := idx_facts t
  show V m c main_arg0 (((cfg0.win 0).blk t).view.emb (ix3 0 r k)) = V m c main_arg0 (ix3 b p k)
  refine congrArg (V m c main_arg0) (funext fun a => Fin.ext ?_)
  match a with
  | ⟨0, _⟩ => show win0_0.index t (0 : Fin 3) * 1 + 1 * 0 = b.val; omega
  | ⟨1, _⟩ => show win0_0.index t (1 : Fin 3) * 512 + 1 * r.val = p.val; omega
  | ⟨2, _⟩ => show win0_0.index t (2 : Fin 3) * 128 + 1 * k.val = k.val; omega

/-- The column slab at point `t`, read at (r, k), is the points array at the tile's batch, row `512 j + r`. -/
theorem col_read (c : Dev nD) (t : Fin cfg0.N) (r : Fin 512) (k : Fin 128) (b : Fin 4) (q : Fin 2048)
    (hb : b.val = win0_2.index t (0 : Fin 3)) (hq : q.val = win0_2.index t (2 : Fin 3) * 512 + r.val) :
    colSlab m c t (ix3 0 r k) = pts m c (ix3 b q k) := by
  obtain ⟨e0, e1, e2, e3, e4, e5⟩ := idx_facts t
  show V m c main_arg0 (((cfg0.win 1).blk t).view.emb (ix3 0 r k)) = V m c main_arg0 (ix3 b q k)
  refine congrArg (V m c main_arg0) (funext fun a => Fin.ext ?_)
  match a with
  | ⟨0, _⟩ => show win0_1.index t (0 : Fin 3) * 1 + 1 * 0 = b.val; omega
  | ⟨1, _⟩ => show win0_1.index t (1 : Fin 3) * 512 + 1 * r.val = q.val; omega
  | ⟨2, _⟩ => show win0_1.index t (2 : Fin 3) * 128 + 1 * k.val = k.val; omega

/-- The tile over the two slabs of point `t`, at (p', q'), is the distance between the points they stand for. -/
theorem tile_at (c : Dev nD) (t : Fin cfg0.N) (z : Fin 1) (p' q' : Fin 512) (b : Fin 4) (p q : Fin 2048)
    (hb : b.val = win0_2.index t (0 : Fin 3)) (hp : p.val = win0_2.index t (1 : Fin 3) * 512 + p'.val)
    (hq : q.val = win0_2.index t (2 : Fin 3) * 512 + q'.val) :
    tileDist (rowSlab m c t) (colSlab m c t) (ix3 z p' q') = Cert.Edm.dist (pts m c) b p q := by
  unfold tileDist Cert.Edm.dist slabSq slabInner sqNorm Cert.Edm.inner
  show close (∑ k : Fin 128, rowSlab m c t (ix3 0 p' k) * rowSlab m c t (ix3 0 p' k))
      (∑ k : Fin 128, colSlab m c t (ix3 0 q' k) * colSlab m c t (ix3 0 q' k))
      (∑ k : Fin 128, rowSlab m c t (ix3 0 p' k) * colSlab m c t (ix3 0 q' k))
    = close (∑ k : Fin 128, pts m c (ix3 b p k) * pts m c (ix3 b p k))
      (∑ k : Fin 128, pts m c (ix3 b q k) * pts m c (ix3 b q k))
      (∑ k : Fin 128, pts m c (ix3 b p k) * pts m c (ix3 b q k))
  simp only [row_read m c t p' _ b p hb hp, col_read m c t q' _ b q hb hq]

/-- What point `t` writes back is block `t` of the distance array of the points. -/
theorem flushed_eq (c : Dev nD) (t : Fin cfg0.N) :
    (dats m 0 c).flushed 2 t = ((cfg0.win 2).blk t).view.read (Elt Ideal) (distMat (V m c main_arg0)) := by
  show (cfg0.win 2).cut (grid0.coords t) ((dats m 0 c).after 2 t) = _
  rw [after0_2]
  unfold tileOf
  rw [View.canon_unit_zero off_zero]
  simp only [View.ld_unit_zero (S := S1x512x128) off_zero]
  rw [Cert.Edm.Tile.pay_eq_tileDist]
  funext j
  obtain ⟨z, p', q', rfl⟩ : ∃ (z : Fin 1) (p' q' : Fin 512), j = ix3 z p' q' := ⟨j 0, j 1, j 2, eq_ix3 j⟩
  show tileDist (rowSlab m c t) (colSlab m c t) (ix3 z p' q')
    = Cert.Edm.dist (pts m c) ((((cfg0.win 2).blk t).view.emb (ix3 z p' q')) 0) ((((cfg0.win 2).blk t).view.emb (ix3 z p' q')) 1)
        ((((cfg0.win 2).blk t).view.emb (ix3 z p' q')) 2)
  refine tile_at m c t z p' q' _ _ _ ?_ ?_ ?_
  · show win0_2.index t (0 : Fin 3) * 1 + 1 * z.val = _; have hz : z.val < 1 := z.isLt; omega
  · show win0_2.index t (1 : Fin 3) * 512 + 1 * p'.val = _; omega
  · show win0_2.index t (2 : Fin 3) * 512 + 1 * q'.val = _; omega

/-- An index of the distance array is in point `t`'s tile iff each coordinate is in the tile's range on its axis. -/
theorem mem_tile (t : Fin cfg0.N) (i : S4x2048x2048.Idx) :
    i ∈ ((cfg0.win 2).blk t).view.set ↔ ∀ a : Fin 3, win0_2.index t a * S1x512x512.size a ≤ (i a).val ∧ (i a).val < win0_2.index t a * S1x512x512.size a + S1x512x512.size a := by
  show i ∈ ((View.whole main_v0).slice (win0_2.rect t)).set ↔ _
  rw [View.set_slice_whole, Rect.mem_set_unit]
  exact Iff.rfl

/-- The tiles cover the distance array. -/
theorem cover (i : S4x2048x2048.Idx) : ∃ t : Fin cfg0.N, (cfg0.win 2).flush t = true ∧ i ∈ ((cfg0.win 2).blk t).view.set := by
  have hi0 : (i 0).val < 4 := (i 0).isLt
  have hi1 : (i 1).val < 2048 := (i 1).isLt
  have hi2 : (i 2).val < 2048 := (i 2).isLt
  obtain ⟨t, ht⟩ := idx_onto ⟨(i 0).val, by omega⟩ ⟨(i 1).val / 512, by omega⟩ ⟨(i 2).val / 512, by omega⟩
  have q0 : win0_2.index t (0 : Fin 3) = (i 0).val := congrFun ht 0
  have q1 : win0_2.index t (1 : Fin 3) = (i 1).val / 512 := congrFun ht 1
  have q2 : win0_2.index t (2 : Fin 3) = (i 2).val / 512 := congrFun ht 2
  refine ⟨t, flush0_2 t, ?_⟩
  rw [mem_tile]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 512 ≤ (i 1).val ∧ (i 1).val < win0_2.index t (1 : Fin 3) * 512 + 512; omega
  | ⟨2, _⟩ => show win0_2.index t (2 : Fin 3) * 512 ≤ (i 2).val ∧ (i 2).val < win0_2.index t (2 : Fin 3) * 512 + 512; omega

/-- The distance array after the run. -/
theorem final (c : Dev nD) : (dats m 0 c).arrAt 2 cfg0.N = distMat (V m c main_arg0) :=
  (dats m 0 c).arrAt_eq_of_cover 2 (distMat (V m c main_arg0)) (fun t _ => flushed_eq m c t) cover

/-- The run, read: the distance array ends at the specification's of the points as launched, the points unchanged. -/
theorem run : θ_run defs (onTc (τ := τ) (main (F := Ideal))) ⟨m, fun _ => 0, ρ⟩ fun r => ∀ c : Dev nD,
      r.2.mem ((c.tc : Thread nD τ).loc main_v0) = distMat (m ((c.tc : Thread nD τ).loc main_arg0))
      ∧ r.2.mem ((c.tc : Thread nD τ).loc main_arg0) = m ((c.tc : Thread nD τ).loc main_arg0) :=
  (θ_run defs _ _).mono (fun r h c => ⟨((h c).1 2).trans (final m c),
      ((h c).1 0).trans (((dats m 0 c).arrAt_in 0 rfl _).trans ((A_eq m c 0).trans (V_main_arg0 m c)))⟩)
    (run_main m ρ)

end Cert.KernelIdeal.HandValue

end
-- ==== Proof.RefValue.lean ====
/-
  The whole-array program computes the distance array of the specification.

  Read at an index (b, p, q), the program's result is
  sqrt (max (s_p + s_q - 2 * d_pq) 0 + eps), where s_r is the sum over the 128 coordinates of the squares of point r of
  batch b (an initial 0 plus that sum) and d_pq is the sum over the coordinates of the products of points p and q.
  These are the squared norms and the inner product of the specification, so the entry is the regularised distance.
  The zero that starts the sums is evaluated (0 + s = s); the zero of the clamp, 2 and eps stay the words they are.
-/
import proofs.«119109_j15040975470940_1_alg».proof.Proof.Gen.ReferenceIdeal.Read
import proofs.«119109_j15040975470940_1_alg».proof.Proof.Spec

noncomputable section

open scoped BigOperators

namespace Cert.Edm.Ref

open Idealize.ShloMosaic Idealize.ShloMosaic.ValueIdx Cert.ReferenceIdeal Cert.ReferenceIdeal.Read

/-- The sum of squares along the last axis, at (b, r), is the squared norm of point r of batch b. -/
theorem sq_at (x : Cert.Edm.SPts.Idx → EReal) (b : Fin 4) (r : Fin 2048) :
    val_main_v1 (F := Ideal) x (ix2 b r) = sqNorm x b r := by
  rw [val_main_v1_apply, val_main_cst_apply, Ideal.ofBits_def, Ideal.ofBits_zero_f32, zero_add]
  unfold sqNorm
  refine Finset.sum_congr rfl fun k _ => ?_
  have e : idx_main_v1 (ix2 b r) k = ix3 b r k :=
    funext fun a => Fin.ext (by match a with | ⟨0, _⟩ => rfl | ⟨1, _⟩ => rfl | ⟨2, _⟩ => rfl)
  rw [e, val_main_v0_apply, Ideal.mulf_def]

/-- The contraction over the last axis, at (b, p, q), is the inner product of points p and q of batch b. -/
theorem inner_at (x : Cert.Edm.SPts.Idx → EReal) (b : Fin 4) (p q : Fin 2048) :
    val_main_v2 (F := Ideal) x (ix3 b p q) = inner x b p q := by
  rw [val_main_v2_apply]
  unfold inner
  refine Finset.sum_congr rfl fun k _ => ?_
  have el : lidx_main_v2 (ix3 b p q) k = ix3 b p k :=
    funext fun a => Fin.ext (by match a with | ⟨0, _⟩ => rfl | ⟨1, _⟩ => rfl | ⟨2, _⟩ => rfl)
  have er : ridx_main_v2 (ix3 b p q) k = ix3 b q k :=
    funext fun a => Fin.ext (by match a with | ⟨0, _⟩ => rfl | ⟨1, _⟩ => rfl | ⟨2, _⟩ => rfl)
  rw [el, er]

/-- The whole-array program's result is the distance array. -/
theorem val_eq_distMat (x : Cert.Edm.SPts.Idx → EReal) :
    Cert.ReferenceIdeal.Read.val_main_v15 (F := Idealize.ShloMosaic.Ideal) x = Cert.Edm.distMat x := by
  funext i
  obtain ⟨b, p, q, rfl⟩ : ∃ b p q, i = ix3 b p q := ⟨i 0, i 1, i 2, eq_ix3 i⟩
  -- the row norms are read at (b, p), the column norms at (b, q)
  have e53 : idx_main_v3 (idx_main_v5 (ix3 b p q)) = ix2 b p :=
    funext fun a => Fin.ext (by match a with | ⟨0, _⟩ => rfl | ⟨1, _⟩ => rfl)
  have e64 : idx_main_v4 (idx_main_v6 (ix3 b p q)) = ix2 b q :=
    funext fun a => Fin.ext (by match a with | ⟨0, _⟩ => rfl | ⟨1, _⟩ => rfl)
  rw [val_main_v15_apply, val_main_v14_apply, val_main_v12_apply, val_main_v10_apply, val_main_v7_apply,
    val_main_v5_apply, val_main_v3_apply, e53, sq_at,
    val_main_v6_apply, val_main_v4_apply, e64, sq_at,
    val_main_v9_apply, val_main_v8_apply, val_main_cst_0_apply, inner_at,
    val_main_v11_apply, val_main_cst_1_apply, val_main_v13_apply, val_main_cst_2_apply]
  simp only [Ideal.addf_def, Ideal.subf_def, Ideal.mulf_def, Ideal.maximumf_def, Ideal.hostUnary_sqrt_def, Ideal.ofBits_def]
  rfl

end Cert.Edm.Ref

end
-- ==== Proof.lean ====
/-
  The certificate of the tiled pairwise-distance kernel against its whole-array reference.

  Both programs compute, for an array of four batches of 2048 points in 128 dimensions, the array of regularised
  distances sqrt (max (|x_p|^2 + |x_q|^2 - 2 <x_p, x_q>) 0 + eps) between the points of each batch. The kernel does it
  tile by tile, 512 x 512 entries at each of 64 grid points, from the two slabs of 512 points a tile depends on; the
  reference with whole-array operations. Over the extended reals the sums involved are the same finite sums in another
  arrangement, and the three literals are the same words on both sides, so the results agree entry by entry; nothing
  needs the inputs' finiteness.

  The two slabs are windows on one and the same array, which the launch holds at two half shares (the frame modules);
  the kernel's result array is assembled from its tiles (the value module); the reference's result is read operation
  by operation (the reference module). No operation of the kernel was rewritten for the idealized reading, so that
  conjunct is trivial.
-/
import proofs.«119109_j15040975470940_1_alg».proof.Defs
import proofs.«119109_j15040975470940_1_alg».proof.Proof.Gen.Kernel
import proofs.«119109_j15040975470940_1_alg».proof.Proof.Gen.Kernel.Skeleton
import proofs.«119109_j15040975470940_1_alg».proof.Proof.Gen.Kernel.Launch
import proofs.«119109_j15040975470940_1_alg».proof.Proof.Gen.Kernel.Points
import proofs.«119109_j15040975470940_1_alg».proof.Proof.Gen.KernelIdeal
import proofs.«119109_j15040975470940_1_alg».proof.Proof.Gen.KernelIdeal.Skeleton
import proofs.«119109_j15040975470940_1_alg».proof.Proof.Gen.KernelIdeal.Launch
import proofs.«119109_j15040975470940_1_alg».proof.Proof.Gen.KernelIdeal.Points
import proofs.«119109_j15040975470940_1_alg».proof.Proof.Gen.ReferenceIdeal
import proofs.«119109_j15040975470940_1_alg».proof.Proof.Gen.Pre_finite_inputs
import proofs.«119109_j15040975470940_1_alg».proof.Proof.Gen.ReferenceIdeal.Run
import proofs.«119109_j15040975470940_1_alg».proof.Proof.Gen.ReferenceIdeal.Read
import proofs.«119109_j15040975470940_1_alg».proof.Proof.BitsFrame
import proofs.«119109_j15040975470940_1_alg».proof.Proof.IdealValue
import proofs.«119109_j15040975470940_1_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs to the end, faults nowhere and leaves the points as launched. -/
theorem frame_kernel : Cert.frame_Kernel := fun m ρ _ => Cert.Kernel.Hand.frame m ρ

/-- So does its idealized reading. -/
theorem frame_kernelIdeal : Cert.frame_KernelIdeal := fun m ρ _ => Cert.KernelIdeal.Hand.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten between the kernel and its idealized reading. -/
theorem preserves : Cert.preserves_Kernel_KernelIdeal := trivial

/-- From memories agreeing on the points, both programs end with the distance array of those points. -/
theorem algebraic : Cert.algebraic_KernelIdeal_ReferenceIdeal := by
  intro m ρ m' ρ' _ hagree
  refine ⟨fun c => Cert.Edm.distMat (m ((c.tc : Thread Cert.KernelIdeal.nD Cert.KernelIdeal.τ).loc Cert.KernelIdeal.main_arg0)),
    Cert.KernelIdeal.HandValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, hagree c]
  exact Cert.Edm.Ref.val_eq_distMat _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
